-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_v28 : IVec S_ 1) (main_v33 : IVec S1600000 1) : IVec S_ 1 :=
  let main_c_12 : IVec S_ 1 := constantI S_ 1 1#1
  let main_v34 : IVec S_ 1 := (fun x v => Host.reduce IntOp.andi x v reducesTo_S1600000_S_d0 h_S_) main_v33 main_c_12
  let main_v35 : IVec S_ 1 := andi main_v28 main_v34
  main_v35

def fn_part1 {F : FTy → Type} [FloatOps F] (main_arg1 : IVec S1600000 32) (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg6
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_c_10 : IVec S_ 32 := constantI S_ 32 4294867296#32
  let main_v29 : IVec S1600000 32 := broadcastInDim S1600000 ![] bcast_S_S1600000 main_c_10
  let main_v30 : IVec S1600000 1 := cmpi .sge main_arg1 main_v29
  let main_c_11 : IVec S_ 32 := constantI S_ 32 100000#32
  let main_v31 : IVec S1600000 32 := broadcastInDim S1600000 ![] bcast_S_S1600000 main_c_11
  let main_v32 : IVec S1600000 1 := cmpi .slt main_arg1 main_v31
  let main_v33 : IVec S1600000 1 := andi main_v30 main_v32
  fn_part2 (F := F) main_v28 main_v33

def fn {F : FTy → Type} [FloatOps F] (main_arg0 : FVec F S100000x256 .f32) (main_arg1 : IVec S1600000 32) (main_arg2 : IVec S1600000 32) (main_arg3 : FVec F S1600000 .f32) (main_arg4 : FVec F S256x128 .f32) (main_arg5 : FVec F S128 .f32) (main_arg6 : FVec F S128x40 .f32) (main_arg7 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S100000x128 : Shape := ⟨2, ![100000, 128]⟩
abbrev S4000x256 : Shape := ⟨2, ![4000, 256]⟩
abbrev S4000x128 : Shape := ⟨2, ![4000, 128]⟩
abbrev S1600000x1 : Shape := ⟨2, ![1600000, 1]⟩
abbrev S_ : Shape := ⟨0, ![]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S100000x40 : Shape := ⟨2, ![100000, 40]⟩
abbrev S4000x40 : Shape := ⟨2, ![4000, 40]⟩
abbrev S1600000x40 : Shape := ⟨2, ![1600000, 40]⟩
abbrev S1x40 : Shape := ⟨2, ![1, 40]⟩

abbrev nBuf : Space → Nat
  | .hbm => 74
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1, .i32⟩
  | .hbm, ⟨19, _⟩ => ⟨S_, .i32⟩
  | .hbm, ⟨20, _⟩ => ⟨S1600000x1, .i32⟩
  | .hbm, ⟨21, _⟩ => ⟨S1600000x1, .i1⟩
  | .hbm, ⟨22, _⟩ => ⟨S1x1, .i32⟩
  | .hbm, ⟨23, _⟩ => ⟨S1600000x1, .i32⟩
  | .hbm, ⟨24, _⟩ => ⟨S1600000x1, .i1⟩
  | .hbm, ⟨25, _⟩ => ⟨S1600000x1, .i1⟩
  | .hbm, ⟨26, _⟩ => ⟨S_, .i1⟩
  | .hbm, ⟨27, _⟩ => ⟨S1600000, .i1⟩
  | .hbm, ⟨28, _⟩ => ⟨S1600000x128, .f32⟩
  | .hbm, ⟨29, _⟩ => ⟨S1600000x128, .i1⟩
  | .hbm, ⟨30, _⟩ => ⟨S_, .f32⟩
  | .hbm, ⟨31, _⟩ => ⟨S1600000x128, .f32⟩
  | .hbm, ⟨32, _⟩ => ⟨S1600000x128, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S1x128, .f32⟩
  | .hbm, ⟨40, _⟩ => ⟨S100000x40, .f32⟩
  | .hbm, ⟨41, _⟩ => ⟨S1600000x1, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1, .i32⟩
  | .hbm, ⟨51, _⟩ => ⟨S_, .i32⟩
  | .hbm, ⟨52, _⟩ => ⟨S1600000x1, .i32⟩
  | .hbm, ⟨53, _⟩ => ⟨S1600000x1, .i1⟩
  | .hbm, ⟨54, _⟩ => ⟨S1x1, .i32⟩
  | .hbm, ⟨55, _⟩ => ⟨S1600000x1, .i32⟩
  | .hbm, ⟨56, _⟩ => ⟨S1600000x1, .i1⟩
  | .hbm, ⟨57, _⟩ => ⟨S1600000x1, .i1⟩
  | .hbm, ⟨58, _⟩ => ⟨S_, .i1⟩
  | .hbm, ⟨59, _⟩ => ⟨S1600000, .i1⟩
  | .hbm, ⟨60, _⟩ => ⟨S1600000x40, .f32⟩
  | .hbm, ⟨61, _⟩ => ⟨S1600000x40, .i1⟩
  | .hbm, ⟨62, _⟩ => ⟨S_, .f32⟩
  | .hbm, ⟨63, _⟩ => ⟨S1600000x40, .f32⟩
  | .hbm, ⟨64, _⟩ => ⟨S1600000x40, .f32⟩
  | .hbm, ⟨65, _⟩ => ⟨S1600000x40, .f32⟩
  | .hbm, ⟨66, _⟩ => ⟨S1600000x40, .f32⟩
  | .hbm, ⟨67, _⟩ => ⟨S_, .f32⟩
  | .hbm, ⟨68, _⟩ => ⟨S100000x40, .f32⟩
  | .hbm, ⟨69, _⟩ => ⟨S1600000x1, .i32⟩
  | .hbm, ⟨70, _⟩ => ⟨S100000x40, .f32⟩
  | .hbm, ⟨71, _⟩ => ⟨S1x40, .f32⟩
  | .hbm, ⟨72, _⟩ => ⟨S100000x40, .f32⟩
  | .hbm, ⟨73, _⟩ => ⟨S100000x40, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S128x40, .f32⟩
  | .local _ .vmem, ⟨9, _⟩ => ⟨S4000x40, .f32⟩
  | .local _ .vmem, ⟨10, _⟩ => ⟨S4000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_cst_0 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x40_S128x40_0_0 : ∀ a, (![0, 0] : Fin 2 → Nat) a + S128x40.size a ≤ S128x40.size a
  h_S128x40 : 0 < S128x40.numel
  inb_S4000x40_S4000x40_0_0 : ∀ a, (![0, 0] : Fin 2 → Nat) a + S4000x40.size a ≤ S4000x40.size a
  h_S4000x40 : 0 < S4000x40.numel
  bcast_S1600000_S1600000x40_0 : S1600000.BroadcastsInDim S1600000x40 (![0] : Fin 1 → Fin S1600000x40.rank)
  bcast_S_S1600000x40 : S_.BroadcastsInDim S1600000x40 (![] : Fin 0 → Fin S1600000x40.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x40_S4000x40_1_0_0_1_n_n_wf : DotDims.WF S4000x128 S128x40 S4000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x40.size a ≤ S100000x40.size a
  hwx1_3 : ∀ i : grid1.Coords, EltTy.bits .f32 = 32 ∨ (Rect.block (s := S100000x40) S4000x40.size (cc1_transform_3 i) (hinb1_3 i)).WholeWords (EltTy.packing .f32)

variable [Facts₀]

def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S4000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 51
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x40, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x40, .f32⟩
  | .hbm, ⟨42, _⟩ => ⟨S1600000x40, .f32⟩
  | .hbm, ⟨43, _⟩ => ⟨S1600000x40, .f32⟩
  | .hbm, ⟨44, _⟩ => ⟨S_, .f32⟩
  | .hbm, ⟨45, _⟩ => ⟨S100000x40, .f32⟩
  | .hbm, ⟨46, _⟩ => ⟨S1600000x1, .i32⟩
  | .hbm, ⟨47, _⟩ => ⟨S100000x40, .f32⟩
  | .hbm, ⟨48, _⟩ => ⟨S1x40, .f32⟩
  | .hbm, ⟨49, _⟩ => ⟨S100000x40, .f32⟩
  | .hbm, ⟨50, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.LibAndAll.lean ====
import Idealize.ShloMosaic.PureOps.Reduce

/-!
# A conjunction over an axis that holds everywhere

`Lib/ReduceAll.lean` of the library reads a `stablehlo.reduce` with body `and` from its result to its operand: if
the result is true at `j`, every operand element that drops to `j` is true.  This file has the converse for a
reduction that starts from `true`: if EVERY element of the operand is true, the result is true at every index,
whatever the axes reduced.
-/

namespace Idealize.ShloMosaic

namespace IntOp

/-- A left fold of `and` from `true` over elements that are all `true` is `true`. -/
theorem foldl_andi_of_all {ι : Type} (f : ι → BitVec 1) :
    ∀ l : List ι, (∀ n ∈ l, f n = 1#1) → l.foldl (fun r n => andi r (f n)) 1#1 = 1#1
  | [], _ => rfl
  | a :: l, h => by
    have e : andi 1#1 (f a) = 1#1 := by rw [h a (List.mem_cons_self ..)]; decide
    rw [List.foldl_cons, e]
    exact foldl_andi_of_all f l fun n hn => h n (List.mem_cons_of_mem _ hn)

end IntOp

namespace Host

variable {s t u : Shape} {axes : List (Fin s.rank)}

/-- A `stablehlo.reduce` with body `and`, started from `true`, of an operand that is `true` everywhere, is `true`
    at every index of the result. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl, hinit]
  exact IntOp.foldl_andi_of_all x _ fun n _ => hx n

end Host

end Idealize.ShloMosaic
-- ==== Proof.EdgeIndex.lean ====
/-
  The edge sources as row positions.

  Both programs read a row of a node table per edge at the edge's source. A negative source counts from the end of
  the table (100000 is added to it); the kernel's program then tests the position against [0, 99999] and keeps the row
  it read only where the test holds, writing a fill value elsewhere, while the reference reads the row with no test.
  For a source `a` with -100000 ≤ a < 100000 the position is in [0, 99999], so the test holds on every edge and the
  kernel's read is the plain read of the row at the position.
-/
import proofs.«412282_j34746285424763_1_alg».proof.Proof.Gen.KernelIdeal
import proofs.«412282_j34746285424763_1_alg».proof.Proof.LibAndAll
import Idealize.ShloMosaic.Lib.StableHlo.Predicate
import Idealize.ShloMosaic.Lib.ValueIdx

noncomputable section

namespace Cert.GCN

open Cert.KernelIdeal Cert.KernelIdeal.Gen Idealize.ShloMosaic

variable {F : FTy → Type} [FloatOps F]

/-- For a 32-bit word `a` that is, as a signed number, in [-100000, 100000): `a + 100000` when `a` is negative and
    `a` otherwise lies in [0, 99999]. -/
theorem wrap_in_range (a : BitVec 32)
    (h1 : IntOp.cmpi .sge a 4294867296#32 = 1#1) (h2 : IntOp.cmpi .slt a 100000#32 = 1#1) :
    IntOp.andi (IntOp.cmpi .sge (Scalar.select (IntOp.cmpi .slt a 0#32) (IntOp.addi a 100000#32) a) 0#32)
      (IntOp.cmpi .sle (Scalar.select (IntOp.cmpi .slt a 0#32) (IntOp.addi a 100000#32) a) 99999#32) = 1#1 := by
  have e1 : (4294867296#32 : BitVec 32).toInt = -100000 := by decide
  have e2 : (100000#32 : BitVec 32).toInt = 100000 := by decide
  have e3 : (99999#32 : BitVec 32).toInt = 99999 := by decide
  have e0 : (0#32 : BitVec 32).toInt = 0 := by decide
  simp only [IntOp.cmpi, StableHlo.Predicate.ofBool_eq_one_iff] at h1 h2
  rw [BitVec.sle_iff_toInt_le, e1] at h1
  rw [BitVec.slt_iff_toInt_lt, e2] at h2
  unfold Scalar.select IntOp.andi IntOp.addi
  by_cases hneg : a.toInt < 0
  · have hs : IntOp.cmpi .slt a 0#32 = 1#1 := by
      simp only [IntOp.cmpi]; rw [show a.slt 0#32 = true from by rw [BitVec.slt_iff_toInt_lt, e0]; exact hneg]; rfl
    rw [if_pos (show IntOp.cmpi .slt a 0#32 = 1 from hs)]
    have hadd : (a + 100000#32).toInt = a.toInt + 100000 := by
      rw [BitVec.toInt_add, e2]; simp only [Int.bmod]; omega
    have c1 : IntOp.cmpi .sge (a + 100000#32) 0#32 = 1#1 := by
      simp only [IntOp.cmpi]; rw [show (0#32 : BitVec 32).sle (a + 100000#32) = true from by rw [BitVec.sle_iff_toInt_le, e0, hadd]; omega]; rfl
    have c2 : IntOp.cmpi .sle (a + 100000#32) 99999#32 = 1#1 := by
      simp only [IntOp.cmpi]; rw [show (a + 100000#32).sle 99999#32 = true from by rw [BitVec.sle_iff_toInt_le, e3, hadd]; omega]; rfl
    rw [c1, c2]; decide
  · have hs : ¬ IntOp.cmpi .slt a 0#32 = 1#1 := by
      simp only [IntOp.cmpi]; rw [show a.slt 0#32 = false from by
        rw [Bool.eq_false_iff]; intro h; rw [BitVec.slt_iff_toInt_lt, e0] at h; exact hneg h]; decide
    rw [if_neg (show ¬ IntOp.cmpi .slt a 0#32 = 1 from hs)]
    have c1 : IntOp.cmpi .sge a 0#32 = 1#1 := by
      simp only [IntOp.cmpi]; rw [show (0#32 : BitVec 32).sle a = true from by rw [BitVec.sle_iff_toInt_le, e0]; omega]; rfl
    have c2 : IntOp.cmpi .sle a 99999#32 = 1#1 := by
      simp only [IntOp.cmpi]; rw [show a.sle 99999#32 = true from by rw [BitVec.sle_iff_toInt_le, e3]; omega]; rfl
    rw [c1, c2]; decide

/-- Every edge's source is, as a signed number, in [-100000, 100000): a position of the node table or one counted from its end. -/
def SrcInRange (src : IVec S1600000 32) : Prop :=
  ∀ e : S1600000.Idx, IntOp.cmpi .sge (src e) 4294867296#32 = 1#1 ∧ IntOp.cmpi .slt (src e) 100000#32 = 1#1

/-- The sources as positions: a negative one has 100000 added. -/
def srcPos (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The positions as a column, one start index per edge. -/
def srcCol (src : IVec S1600000 32) : IVec S1600000x1 32 :=
  broadcastInDim S1600000x1 ![0] bcast_S1600000_S1600000x1_0 (srcPos src)

/-- The kernel program's test of each position against [0, 99999]. -/
def posTest (src : IVec S1600000 32) : IVec S1600000x1 1 :=
  andi (cmpi .sge (srcCol src) (broadcastInDim S1600000x1 ![] bcast_S_S1600000x1 (constantI S_ 32 0#32)))
    (cmpi .sle (srcCol src) (broadcastInDim S1600000x1 ![0, 1] bcast_S1x1_S1600000x1_0_1
      (broadcastInDim S1x1 ![1] bcast_S1_S1x1_1 (constantI S1 32 99999#32))))

/-- The test per edge: the conjunction over the column's one entry. -/
def edgeOk (src : IVec S1600000 32) : IVec S1600000 1 :=
  Host.reduce IntOp.andi (posTest src) (constantI S_ 1 1#1) reducesTo_S1600000x1_S1600000_d1 h_S_

/-- With the sources in range the test holds at every entry of the column. -/
theorem posTest_of_inRange {src : IVec S1600000 32} (h : SrcInRange src) (j : S1600000x1.Idx) : posTest src j = 1#1 :=
  wrap_in_range (src _) (h _).1 (h _).2

/-- With the sources in range the test holds on every edge. -/
theorem edgeOk_of_inRange {src : IVec S1600000 32} (h : SrcInRange src) (e : S1600000.Idx) : edgeOk src e = 1#1 :=
  Host.reduce_andi_of_all _ _ _ _ rfl (posTest_of_inRange h) e

/-- The kernel program's read of the 128-wide table's rows: the row at the position where the test holds, the fill value elsewhere. -/
def takeRows128 (h : FVec F S100000x128 .f32) (src : IVec S1600000 32) : FVec F S1600000x128 .f32 :=
  select (broadcastInDim S1600000x128 ![0] bcast_S1600000_S1600000x128_0 (edgeOk src))
    (Host.gather gather_S100000x128_S1600000x1_S1600000x128_1_0_n_n_0_1_1128 h (srcCol src))
    (broadcastInDim S1600000x128 ![] bcast_S_S1600000x128 (constant S_ .f32 0x7FC00000#32))

/-- The same of the 40-wide table. -/
def takeRows40 (h : FVec F S100000x40 .f32) (src : IVec S1600000 32) : FVec F S1600000x40 .f32 :=
  select (broadcastInDim S1600000x40 ![0] bcast_S1600000_S1600000x40_0 (edgeOk src))
    (Host.gather gather_S100000x40_S1600000x1_S1600000x40_1_0_n_n_0_1_140 h (srcCol src))
    (broadcastInDim S1600000x40 ![] bcast_S_S1600000x40 (constant S_ .f32 0x7FC00000#32))

/-- With the sources in range the kernel program's read is the plain read of the rows at the positions. -/
theorem takeRows128_of_inRange {src : IVec S1600000 32} (hs : SrcInRange src) (h : FVec F S100000x128 .f32) :
    takeRows128 h src = Host.gather gather_S100000x128_S1600000x1_S1600000x128_1_0_n_n_0_1_1128 h (srcCol src) := by
  funext i
  unfold takeRows128
  rw [ValueIdx.select_apply]
  have hm : broadcastInDim S1600000x128 ![0] bcast_S1600000_S1600000x128_0 (edgeOk src) i = 1#1 := edgeOk_of_inRange hs _
  rw [hm]; rfl

theorem takeRows40_of_inRange {src : IVec S1600000 32} (hs : SrcInRange src) (h : FVec F S100000x40 .f32) :
    takeRows40 h src = Host.gather gather_S100000x40_S1600000x1_S1600000x40_1_0_n_n_0_1_140 h (srcCol src) := by
  funext i
  unfold takeRows40
  rw [ValueIdx.select_apply]
  have hm : broadcastInDim S1600000x40 ![0] bcast_S1600000_S1600000x40_0 (edgeOk src) i = 1#1 := edgeOk_of_inRange hs _
  rw [hm]; rfl

end Cert.GCN

end
-- ==== Proof.Aggregate.lean ====
/-
  One sparse aggregation, as both programs spell it.

  Per edge the row of a node table at the edge's source is scaled by the edge's weight; the scaled rows are summed into
  the rows of a zero table at the edges' destinations. The kernel's program reads the source rows with the position
  test, the reference without; with the sources in range the two readings, and so the two aggregations, are one.
  The gather and the scattered sum themselves are never opened: both programs apply the same ones.
-/
import proofs.«412282_j34746285424763_1_alg».proof.Proof.EdgeIndex

noncomputable section

namespace Cert.GCN

open Cert.KernelIdeal Cert.KernelIdeal.Gen Idealize.ShloMosaic

variable {F : FTy → Type} [FloatOps F]

/-- The edges' weights beside each of 128 columns. -/
def weights128 (w : FVec F S1600000 .f32) : FVec F S1600000x128 .f32 :=
  broadcastInDim S1600000x128 ![0, 1] bcast_S1600000x1_S1600000x128_0_1 (broadcastInDim S1600000x1 ![0] bcast_S1600000_S1600000x1_0 w)

/-- The edges' weights beside each of 40 columns. -/
def weights40 (w : FVec F S1600000 .f32) : FVec F S1600000x40 .f32 :=
  broadcastInDim S1600000x40 ![0, 1] bcast_S1600000x1_S1600000x40_0_1 (broadcastInDim S1600000x1 ![0] bcast_S1600000_S1600000x1_0 w)

/-- Per-edge rows [1600000, 128] summed into the rows of a zero [100000, 128] table at the destinations. -/
def sumInto128 (dst : IVec S1600000 32) (msgs : FVec F S1600000x128 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst) msgs

/-- Per-edge rows [1600000, 40] summed into the rows of a zero [100000, 40] table at the destinations. -/
def sumInto40 (dst : IVec S1600000 32) (msgs : FVec F S1600000x40 .f32) : FVec F S100000x40 .f32 :=
  Host.scatterAdd scatter_S100000x40_S1600000x1_S1600000x40_1_0_0_1
    (broadcastInDim S100000x40 ![] bcast_S_S100000x40 (constant S_ .f32 0x00000000#32))
    (broadcastInDim S1600000x1 ![0] bcast_S1600000_S1600000x1_0 dst) msgs

/-- The aggregation of a 128-wide table, rows read with the position test (the kernel's program). -/
def aggTake128 (h : FVec F S100000x128 .f32) (src dst : IVec S1600000 32) (w : FVec F S1600000 .f32) : FVec F S100000x128 .f32 :=
  sumInto128 dst (mulf (weights128 w) (takeRows128 h src))

/-- The aggregation of a 128-wide table, rows read plainly (the reference). -/
def agg128 (h : FVec F S100000x128 .f32) (src dst : IVec S1600000 32) (w : FVec F S1600000 .f32) : FVec F S100000x128 .f32 :=
  sumInto128 dst (mulf (weights128 w) (Host.gather gather_S100000x128_S1600000x1_S1600000x128_1_0_n_n_0_1_1128 h (srcCol src)))

/-- The aggregation of a 40-wide table, rows read with the position test (the kernel's program). -/
def aggTake40 (h : FVec F S100000x40 .f32) (src dst : IVec S1600000 32) (w : FVec F S1600000 .f32) : FVec F S100000x40 .f32 :=
  sumInto40 dst (mulf (weights40 w) (takeRows40 h src))

/-- The aggregation of a 40-wide table, rows read plainly (the reference). -/
def agg40 (h : FVec F S100000x40 .f32) (src dst : IVec S1600000 32) (w : FVec F S1600000 .f32) : FVec F S100000x40 .f32 :=
  sumInto40 dst (mulf (weights40 w) (Host.gather gather_S100000x40_S1600000x1_S1600000x40_1_0_n_n_0_1_140 h (srcCol src)))

theorem aggTake128_eq {src : IVec S1600000 32} (hs : SrcInRange src) (h : FVec F S100000x128 .f32) (dst : IVec S1600000 32)
    (w : FVec F S1600000 .f32) : aggTake128 h src dst w = agg128 h src dst w := by
  unfold aggTake128 agg128; rw [takeRows128_of_inRange hs]

theorem aggTake40_eq {src : IVec S1600000 32} (hs : SrcInRange src) (h : FVec F S100000x40 .f32) (dst : IVec S1600000 32)
    (w : FVec F S1600000 .f32) : aggTake40 h src dst w = agg40 h src dst w := by
  unfold aggTake40 agg40; rw [takeRows40_of_inRange hs]

/-- The bias [128] as a row [1, 128]. -/
def biasRow (b : FVec F S128 .f32) : FVec F S1x128 .f32 := shapeCast S1x128 b shapeCasts_S128_S1x128

/-- The output bias [40] beside each of the 100000 rows. -/
def biasRows40 (b : FVec F S40 .f32) : FVec F S100000x40 .f32 :=
  broadcastInDim S100000x40 ![0, 1] bcast_S1x40_S100000x40_0_1 (broadcastInDim S1x40 ![1] bcast_S40_S1x40_1 b)

end Cert.GCN

end
-- ==== Proof.LibMatmulPlain.lean ====
/-
  A plain matrix product, read at an index.

  For dimension numbers that contract the left operand's axis 1 with the right operand's axis 0, keep the left operand's
  axis 0 and the right operand's axis 1, and have no batch axis, the product of `l : [M, K]` and `r : [K, N]` into a zero
  accumulator is, at `(p, q)`, the sum over `k < K` of `l (p, k) · r (k, q)` on the extended reals. The contraction
  index set has one axis of extent `K`; the sum over it is re-indexed by its one coordinate.
-/
import Idealize.ShloMosaic.PureOps.Ideal.Laws
import Idealize.ShloMosaic.Lib.ValueIdx

noncomputable section

namespace Cert.Lib.MatmulPlain

open Idealize.ShloMosaic Idealize.ShloMosaic.ValueIdx

variable {M K N : Nat} (d : DotDims ⟨2, ![M, K]⟩ ⟨2, ![K, N]⟩ ⟨2, ![M, N]⟩)

/-- The contraction index set has one axis. -/
theorem contr_rank (hlc : d.lhsContracting = [1]) : d.contr.rank = 1 := by
  rw [d.rank_contr, hlc]; rfl

/-- Its extent is the contracted extent `K`. -/
theorem contr_size (hlc : d.lhsContracting = [1]) :
    d.contr.size ⟨0, by rw [contr_rank d hlc]; exact Nat.one_pos⟩ = K := by
  have key : ∀ (L : List (Fin 2)) (h : L = [1]) (hp : 0 < (Shape.ofList (L.map (⟨2, ![M, K]⟩ : Shape).size)).rank),
      (Shape.ofList (L.map (⟨2, ![M, K]⟩ : Shape).size)).size ⟨0, hp⟩ = K := by
    intro L h hp; subst h; rfl
  exact key _ hlc _

/-- The left operand's row coordinate is the result's row. -/
theorem lhs_0 (hln : d.lhsNonContracting = [0]) (hlb : d.lhsBatch = []) (j : (⟨2, ![M, N]⟩ : Shape).Idx) (k : d.contr.Idx) :
    (d.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln])

/-- The left operand's column coordinate is the contraction position. -/
theorem lhs_1 (hlc : d.lhsContracting = [1]) (j : (⟨2, ![M, N]⟩ : Shape).Idx) (k : d.contr.Idx) :
    (d.lhsIdx j k 1).val = (k ⟨0, by rw [contr_rank d hlc]; exact Nat.one_pos⟩).val :=
  d.lhsIdx_val_of_single hlc j k

/-- The right operand's row coordinate is the contraction position. -/
theorem rhs_0 (hlc : d.lhsContracting = [1]) (hrc : d.rhsContracting = [0]) (j : (⟨2, ![M, N]⟩ : Shape).Idx) (k : d.contr.Idx) :
    (d.rhsIdx j k 0).val = (k ⟨0, by rw [contr_rank d hlc]; exact Nat.one_pos⟩).val :=
  d.rhsIdx_val_of_single hrc j k

/-- The right operand's column coordinate is the result's column. -/
theorem rhs_1 (hrn : d.rhsNonContracting = [1]) (hln : d.lhsNonContracting = [0]) (hlb : d.lhsBatch = []) (hrb : d.rhsBatch = [])
    (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln, hrn])

/-- THE PRODUCT AT `(p, q)`: the sum over the contracted coordinate of the operands' products. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q)
      = ∑ k : Fin K, l (ix2 p k) * r (ix2 k q) := by
  rw [Ideal.matmul_constant_zero_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_0 d hln hlb _ _
    | ⟨1, _⟩ => exact (lhs_1 d hlc _ _).trans hk
  have er : d.rhsIdx (ix2 p q) ((contrEquiv1 d K (contr_rank d hlc) (contr_size d hlc)).symm k) = ix2 k q := by
    funext a; apply Fin.ext
    match a with
    | ⟨0, _⟩ => exact (rhs_0 d hlc hrc _ _).trans hk
    | ⟨1, _⟩ => exact rhs_1 d hrn hln hlb hrb _ _
  rw [el, er]

end Cert.Lib.MatmulPlain

end
-- ==== Proof.Dense1.lean ====
/-
  The first dense layer: the table the first grid leaves.

  The first grid walks the 100000 rows of `x` in 25 blocks of 4000 rows; at block `t` the body multiplies the block
  [4000, 256] by the whole weight matrix [256, 128] into a zero accumulator and writes the product back as rows
  4000·t … 4000·t + 3999 of the result. Rounding the operands to a narrower format changes nothing over the extended reals,
  so entry (p, q) of the block's product is the sum over k of x(4000·t + p, k) · w(k, q): the blocks are the row blocks
  of one function of the two arrays, the matrix product, and the 25 blocks cover all rows.
-/
import proofs.«412282_j34746285424763_1_alg».proof.Proof.Gen.KernelIdeal.Frame
import proofs.«412282_j34746285424763_1_alg».proof.Proof.LibMatmulPlain
import Idealize.ShloMosaic.Lib.Pipeline.Value
import Idealize.ShloMosaic.Lib.ValueIdx

set_option maxRecDepth 16384

noncomputable section

namespace Cert.GCN

open Cert.KernelIdeal Cert.KernelIdeal.Gen Idealize.ShloMosaic Idealize.ShloMosaic.TcCoe Idealize.ShloMosaic.ValueIdx Idealize.SL.Sem
open Idealize.ShloMosaic.Pipeline (Dat)

/-- The product of a [100000, 256] table and a [256, 128] matrix over the extended reals, entry by entry. -/
def dense1 (x : FVec Ideal S100000x256 .f32) (w : FVec Ideal S256x128 .f32) : FVec Ideal S100000x128 .f32 :=
  fun i => ∑ k : Fin 256, x (ix2 (i 0) k) * w (ix2 k (i 1))

theorem hz2 : (![0, 0] : Fin 2 → Nat) = fun _ => 0 := funext fun a => by fin_cases a <;> rfl

/-- The body's product of a block and the weights, at (p, q): the sum over the contracted coordinate. -/
theorem pay0_apply (x0 : Vec Ideal S4000x256 .f32) (x1 : Vec Ideal S256x128 .f32) (p : Fin 4000) (q : Fin 128) :
    k0_pay1 x0 x1 (ix2 p q) = ∑ k : Fin 256, x0 (ix2 p k) * x1 (ix2 k q) := by
  unfold k0_pay1
  exact Cert.Lib.MatmulPlain.matmul_zero_apply dot_S4000x256_S256x128_S4000x128_1_0_0_1_n_n rfl rfl rfl rfl rfl rfl none _ _ p q

section
variable (V : (c : Dev nD) → (b : Ref sig .tc) → Buf (Elt Ideal) ((c : Thread nD τ).loc b))

/-- Where the three windows' blocks sit at point `t`: the row block `t` of `x` and of the result, the whole weight matrix. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the matrix product of the two arrays as the grid finds them. -/
theorem flushed0 (c : Dev nD) (t : Fin cfg0.N) :
    (dat0 V c).flushed 2 t = ((cfg0.win 2).blk t).view.read (Elt Ideal)
      (dense1 (V c (Pipeline.arrRef spec0 0)) (V c (Pipeline.arrRef spec0 1))) := by
  show (cfg0.win 2).cut (grid0.coords t) ((dat0 V c).after 2 t) = _
  rw [after0_2]
  unfold out0_2
  rw [View.canon_unit_zero hz2]
  simp only [View.ld_unit_zero (S := S4000x256) hz2, View.ld_unit_zero (S := S256x128) hz2]
  obtain ⟨e0, e1, e2, e3, e4, e5⟩ := idx_facts0 t
  funext j
  obtain ⟨p, q, rfl⟩ : ∃ (p : Fin 4000) (q : Fin 128), j = ix2 p q := ⟨j 0, j 1, eq_ix2 j⟩
  refine (pay0_apply _ _ p q).trans ?_
  rw [View.read_apply]
  unfold dense1
  refine Finset.sum_congr rfl fun k _ => ?_
  congr 1
  · unfold iblk0
    rw [View.read_apply]
    refine congrArg (V c (Pipeline.arrRef spec0 0)) ?_
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 256 + 1 * k.val = k.val; omega
  · unfold iblk0
    rw [View.read_apply]
    refine congrArg (V c (Pipeline.arrRef spec0 1)) ?_
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega

/-- An index of the result is in point `t`'s block iff each coordinate is in the block's range on its axis. -/
theorem mem_blk0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v0).slice (win0_2.rect t)).set ↔ _
  rw [View.set_slice_whole, Rect.mem_set_unit]
  exact Iff.rfl

/-- Row `r` is in the block of point `r / 4000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨e0, e1, e2, e3, e4, e5⟩ := idx_facts0 t
  refine ⟨t, flush0_2 t, ?_⟩
  rw [mem_blk0]
  intro a
  have ht : t.val = (i 0).val / 4000 := rfl
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- THE TABLE after the first grid: the matrix product of the two arrays as the grid finds them. -/
theorem final0 (c : Dev nD) : (dat0 V c).arrAt 2 cfg0.N = dense1 (V c (Pipeline.arrRef spec0 0)) (V c (Pipeline.arrRef spec0 1)) :=
  (dat0 V c).arrAt_eq_of_cover 2 _ (fun t _ => flushed0 V c t) cover0

end

end Cert.GCN

end
-- ==== Proof.Dense2.lean ====
/-
  The second dense layer: the table the second grid leaves.

  The second grid walks the 100000 rows of the aggregated table in 25 blocks of 4000 rows; at block `t` the body adds the
  bias row to every row of the block [4000, 128], takes the maximum with zero, multiplies by the whole weight matrix
  [128, 40] into a zero accumulator and writes the product back as rows 4000·t … 4000·t + 3999 of the result. Over the
  extended reals entry (p, q) of the block's product is the sum over k of max(a(4000·t + p, k) + b(0, k), 0) · w(k, q):
  the blocks are the row blocks of one function of the three arrays, and the 25 blocks cover all rows.
-/
import proofs.«412282_j34746285424763_1_alg».proof.Proof.Gen.KernelIdeal.Frame
import proofs.«412282_j34746285424763_1_alg».proof.Proof.LibMatmulPlain
import Idealize.ShloMosaic.Lib.Pipeline.Value
import Idealize.ShloMosaic.Lib.ValueIdx

set_option maxRecDepth 16384

noncomputable section

namespace Cert.GCN

open Cert.KernelIdeal Cert.KernelIdeal.Gen Idealize.ShloMosaic Idealize.ShloMosaic.TcCoe Idealize.ShloMosaic.ValueIdx Idealize.SL.Sem
open Idealize.ShloMosaic.Pipeline (Dat)

/-- Rows of a [100000, 128] table plus a bias row, clipped below at zero, times a [128, 40] matrix, over the extended
    reals, entry by entry. -/
def dense2 (a : FVec Ideal S100000x128 .f32) (b : FVec Ideal S1x128 .f32) (w : FVec Ideal S128x40 .f32) : FVec Ideal S100000x40 .f32 :=
  fun i => ∑ k : Fin 128, max (a (ix2 (i 0) k) + b (ix2 0 k)) 0 * w (ix2 k (i 1))

theorem hz2' : (![0, 0] : Fin 2 → Nat) = fun _ => 0 := funext fun a => by fin_cases a <;> rfl

/-- The body's product at (p, q): the sum over the contracted coordinate of the clipped biased entry times the weight. -/
theorem pay1_apply (x0 : Vec Ideal S4000x128 .f32) (x1 : Vec Ideal S1x128 .f32) (x2 : Vec Ideal S128x40 .f32) (p : Fin 4000) (q : Fin 40) :
    k1_pay1 x0 x1 x2 (ix2 p q) = ∑ k : Fin 128, max (x0 (ix2 p k) + x1 (ix2 0 k)) 0 * x2 (ix2 k q) := by
  unfold k1_pay1
  refine (Cert.Lib.MatmulPlain.matmul_zero_apply dot_S4000x128_S128x40_S4000x40_1_0_0_1_n_n rfl rfl rfl rfl rfl rfl none _ _ p q).trans ?_
  refine Finset.sum_congr rfl fun k _ => ?_
  congr 1
  rw [shapeCast_self, shapeCast_self]
  show max (x0 (ix2 p k) + broadcastTo S4000x128 x1 _ (ix2 p k)) (Ideal.ofBits .f32 0x00000000#32) = _
  rw [Ideal.ofBits_zero_f32, broadcastTo_apply x1 _ (ix2 p k) (ix2 0 k) (fun a => by match a with | ⟨0, _⟩ => rfl | ⟨1, _⟩ => rfl)]

section
variable (V : (c : Dev nD) → (b : Ref sig .tc) → Buf (Elt Ideal) ((c : Thread nD τ).loc b))

/-- Where the four windows' blocks sit at point `t`: the row block `t` of the table and of the result, the whole bias row and weight matrix. -/
theorem idx_facts1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- The table window's block at point `t` holds rows 4000·t … of the table. -/
theorem blk1_table (c : Dev nD) (t : Fin cfg1.N) (p : Fin 4000) (k : Fin 128) (i : S100000x128.Idx)
    (h0 : (i 0).val = t.val * 4000 + p.val) (h1 : (i 1).val = k.val) :
    (iblk1 V c 0 t : Vec Ideal S4000x128 .f32) (ix2 p k) = (V c main_v7 : FVec Ideal S100000x128 .f32) i := by
  obtain ⟨e0, e1, e2, e3, e4, e5, e6, e7⟩ := idx_facts1 t
  unfold iblk1
  rw [View.read_apply]
  show V c main_v7 _ = V c main_v7 _
  congr 1
  funext a; apply Fin.ext
  match a with
  | ⟨0, _⟩ => show win1_0.index t (0 : Fin 2) * 4000 + 1 * p.val = (i 0).val; omega
  | ⟨1, _⟩ => show win1_0.index t (1 : Fin 2) * 128 + 1 * k.val = (i 1).val; omega

/-- The bias window's block at every point is the bias row. -/
theorem blk1_bias (c : Dev nD) (t : Fin cfg1.N) (k : Fin 128) :
    (iblk1 V c 1 t : Vec Ideal S1x128 .f32) (ix2 0 k) = (V c main_v8 : FVec Ideal S1x128 .f32) (ix2 0 k) := by
  obtain ⟨e0, e1, e2, e3, e4, e5, e6, e7⟩ := idx_facts1 t
  unfold iblk1
  rw [View.read_apply]
  show V c main_v8 _ = V c main_v8 _
  congr 1
  funext a; apply Fin.ext
  match a with
  | ⟨0, _⟩ => show win1_1.index t (0 : Fin 2) * 1 + 1 * 0 = 0; omega
  | ⟨1, _⟩ => show win1_1.index t (1 : Fin 2) * 128 + 1 * k.val = k.val; omega

/-- The weight window's block at every point is the weight matrix. -/
theorem blk1_weight (c : Dev nD) (t : Fin cfg1.N) (k : Fin 128) (q : Fin 40) :
    (iblk1 V c 2 t : Vec Ideal S128x40 .f32) (ix2 k q) = (V c main_arg6 : FVec Ideal S128x40 .f32) (ix2 k q) := by
  obtain ⟨e0, e1, e2, e3, e4, e5, e6, e7⟩ := idx_facts1 t
  unfold iblk1
  rw [View.read_apply]
  show V c main_arg6 _ = V c main_arg6 _
  congr 1
  funext a; apply Fin.ext
  match a with
  | ⟨0, _⟩ => show win1_2.index t (0 : Fin 2) * 128 + 1 * k.val = k.val; omega
  | ⟨1, _⟩ => show win1_2.index t (1 : Fin 2) * 40 + 1 * q.val = q.val; omega

/-- What point `t` writes back is block `t` of `dense2` of the three arrays as the grid finds them. -/
theorem flushed1 (c : Dev nD) (t : Fin cfg1.N) :
    (dat1 V c).flushed 3 t = ((cfg1.win 3).blk t).view.read (Elt Ideal)
      (dense2 (V c main_v7) (V c main_v8) (V c main_arg6)) := by
  show (cfg1.win 3).cut (grid1.coords t) ((dat1 V c).after 3 t) = _
  rw [after1_3]
  unfold out1_3
  rw [View.canon_unit_zero hz2']
  simp only [View.ld_unit_zero (S := S4000x128) hz2', View.ld_unit_zero (S := S1x128) hz2', View.ld_unit_zero (S := S128x40) hz2']
  obtain ⟨e0, e1, e2, e3, e4, e5, e6, e7⟩ := idx_facts1 t
  funext j
  obtain ⟨p, q, rfl⟩ : ∃ (p : Fin 4000) (q : Fin 40), j = ix2 p q := ⟨j 0, j 1, eq_ix2 j⟩
  refine (pay1_apply _ _ _ p q).trans ?_
  rw [View.read_apply]
  unfold dense2
  refine Finset.sum_congr rfl fun k _ => ?_
  have hq : ((((cfg1.win 3).blk t).view.emb (ix2 p q)) 1) = q := by
    apply Fin.ext
    show win1_3.index t (1 : Fin 2) * 40 + 1 * q.val = q.val; omega
  rw [blk1_table V c t p k (ix2 ((((cfg1.win 3).blk t).view.emb (ix2 p q)) 0) k)
        (by show win1_3.index t (0 : Fin 2) * 4000 + 1 * p.val = _; omega) rfl,
      blk1_bias V c t k, blk1_weight V c t k q, hq]

/-- An index of the result is in point `t`'s block iff each coordinate is in the block's range on its axis. -/
theorem mem_blk1 (t : Fin cfg1.N) (i : S100000x40.Idx) :
    i ∈ ((cfg1.win 3).blk t).view.set ↔ ∀ a : Fin 2, win1_3.index t a * S4000x40.size a ≤ (i a).val ∧ (i a).val < win1_3.index t a * S4000x40.size a + S4000x40.size a := by
  show i ∈ ((View.whole main_v9).slice (win1_3.rect t)).set ↔ _
  rw [View.set_slice_whole, Rect.mem_set_unit]
  exact Iff.rfl

/-- Row `r` is in the block of point `r / 4000`. -/
theorem cover1 (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  have hN : cfg1.N = 25 := N_1
  let t : Fin cfg1.N := ⟨(i 0).val / 4000, by rw [hN]; omega⟩
  obtain ⟨e0, e1, e2, e3, e4, e5, e6, e7⟩ := idx_facts1 t
  refine ⟨t, flush1_3 t, ?_⟩
  rw [mem_blk1]
  intro a
  have ht : t.val = (i 0).val / 4000 := rfl
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 40 ≤ (i 1).val ∧ (i 1).val < win1_3.index t (1 : Fin 2) * 40 + 40; omega

/-- THE TABLE after the second grid: `dense2` of the three arrays as the grid finds them. -/
theorem final1 (c : Dev nD) : (dat1 V c).arrAt 3 cfg1.N = dense2 (V c main_v7) (V c main_v8) (V c main_arg6) :=
  (dat1 V c).arrAt_eq_of_cover 3 _ (fun t _ => flushed1 V c t) cover1

end

end Cert.GCN

end
-- ==== Proof.KernelValue.lean ====
/-
  What the kernel's program leaves in its result, as one function of its arguments.

  @main is two grids among stretches of host operations, and the contents of the buffers at each boundary are a fold
  through it from the launch memory. Read stretch by stretch — each stretch over ANY contents it is entered from —
  the fold says: the first grid leaves the dense product of `x` and `W1`; the first aggregation reads its rows at the
  edge sources (with the position test), scales and sums them into the destinations; the second grid leaves the clipped,
  biased rows of that times `W2`; the second aggregation does the same on the 40-wide table, and the output bias is added.
  No argument is written on the way.
-/
import proofs.«412282_j34746285424763_1_alg».proof.Proof.Gen.KernelIdeal.Frame
import proofs.«412282_j34746285424763_1_alg».proof.Proof.Aggregate
import proofs.«412282_j34746285424763_1_alg».proof.Proof.Dense1
import proofs.«412282_j34746285424763_1_alg».proof.Proof.Dense2
import Idealize.ShloMosaic.Lib.StableHlo.Run

set_option maxRecDepth 16384

noncomputable section

namespace Cert.GCN

open Cert.KernelIdeal Cert.KernelIdeal.Gen Idealize.ShloMosaic Idealize.ShloMosaic.TcCoe Idealize.SL.Sem Idealize.ShloMosaic.StableHlo

/-- The kernel program's result as a function of its eight arguments. -/
def kernelOut (x : FVec Ideal S100000x256 .f32) (src dst : IVec S1600000 32) (w : FVec Ideal S1600000 .f32)
    (W1 : FVec Ideal S256x128 .f32) (b1 : FVec Ideal S128 .f32) (W2 : FVec Ideal S128x40 .f32) (b2 : FVec Ideal S40 .f32) :
    FVec Ideal S100000x40 .f32 :=
  addf (aggTake40 (dense2 (aggTake128 (dense1 x W1) src dst w) (biasRow b1) W2) src dst w) (biasRows40 b2)

/-! ## Each stretch of host operations, from any contents `W` -/

/-- A value moved to a buffer's own type and back is the value. -/
theorem ofBuf_toBuf {sig : RefSig} {Val : EltTy → Type} {T : BufTy} (x : TRef sig T) (v : T.Contents Val) : x.ofBuf (x.toBuf v) = v := by
  obtain ⟨r, h, h2, h3⟩ := x
  subst h
  rfl

/-- At the buffers the two row reads name, the buffer's own type is the value's: the moves are the identity. -/
theorem ofBuf_arg1 (v : IVec S1600000 32) : (TRef.of (sig := sig) (T := ⟨S1600000, .i32⟩) main_arg1).ofBuf (Val := Elt Ideal) v = v := rfl
theorem ofBuf_v0 (v : FVec Ideal S100000x128 .f32) : (TRef.of (sig := sig) (T := ⟨S100000x128, .f32⟩) main_v0).ofBuf (Val := Elt Ideal) v = v := rfl
theorem toBuf_v2 (v : FVec Ideal S1600000x128 .f32) : (TRef.of (sig := sig) (T := ⟨S1600000x128, .f32⟩) main_v2).toBuf (Val := Elt Ideal) v = v := rfl
theorem ofBuf_v9 (v : FVec Ideal S100000x40 .f32) : (TRef.of (sig := sig) (T := ⟨S100000x40, .f32⟩) main_v9).ofBuf (Val := Elt Ideal) v = v := rfl
theorem toBuf_v11 (v : FVec Ideal S1600000x40 .f32) : (TRef.of (sig := sig) (T := ⟨S1600000x40, .f32⟩) main_v11).toBuf (Val := Elt Ideal) v = v := rfl

section Stretches
variable (W : Valuation τ sig (Elt Ideal))

/-- The stretch after the first grid: the weights as a column; nothing else that is read later is written. -/
theorem stretch1 : after hostOps1 W (Proc.devRef .tc main_v1) = broadcastInDim S1600000x1 ![0] bcast_S1600000_S1600000x1_0 (W (Proc.devRef .tc main_arg3))
    ∧ after hostOps1 W (Proc.devRef .tc main_v0) = W (Proc.devRef .tc main_v0)
    ∧ after hostOps1 W (Proc.devRef .tc main_arg1) = W (Proc.devRef .tc main_arg1)
    ∧ after hostOps1 W (Proc.devRef .tc main_arg2) = W (Proc.devRef .tc main_arg2)
    ∧ after hostOps1 W (Proc.devRef .tc main_arg3) = W (Proc.devRef .tc main_arg3)
    ∧ after hostOps1 W (Proc.devRef .tc main_arg5) = W (Proc.devRef .tc main_arg5)
    ∧ after hostOps1 W (Proc.devRef .tc main_arg6) = W (Proc.devRef .tc main_arg6)
    ∧ after hostOps1 W (Proc.devRef .tc main_arg7) = W (Proc.devRef .tc main_arg7) := by
  refine ⟨?_, ?_, ?_, ?_, ?_, ?_, ?_, ?_⟩ <;> after_results

/-- The first read of rows at the sources: the 128-wide table's rows with the position test. -/
theorem stretch1_1 : after hostOps1_1 W (Proc.devRef .tc main_v2) = takeRows128 (F := Ideal) (W (Proc.devRef .tc main_v0)) (W (Proc.devRef .tc main_arg1))
    ∧ after hostOps1_1 W (Proc.devRef .tc main_v1) = W (Proc.devRef .tc main_v1)
    ∧ after hostOps1_1 W (Proc.devRef .tc main_arg1) = W (Proc.devRef .tc main_arg1)
    ∧ after hostOps1_1 W (Proc.devRef .tc main_arg2) = W (Proc.devRef .tc main_arg2)
    ∧ after hostOps1_1 W (Proc.devRef .tc main_arg3) = W (Proc.devRef .tc main_arg3)
    ∧ after hostOps1_1 W (Proc.devRef .tc main_arg5) = W (Proc.devRef .tc main_arg5)
    ∧ after hostOps1_1 W (Proc.devRef .tc main_arg6) = W (Proc.devRef .tc main_arg6)
    ∧ after hostOps1_1 W (Proc.devRef .tc main_arg7) = W (Proc.devRef .tc main_arg7) := by
  refine ⟨?_, ?_, ?_, ?_, ?_, ?_, ?_, ?_⟩
  · after_results_simp
    simp only [ofBuf_toBuf]
    rw [toBuf_v2]
    simp only [ofBuf_arg1, ofBuf_v0]
    rfl
  all_goals after_results_simp

/-- The stretch before the second grid: the scaled rows summed into the destinations, and the bias as a row. -/
theorem stretch1_2 : after hostOps1_2 W (Proc.devRef .tc main_v7)
      = sumInto128 (F := Ideal) (W (Proc.devRef .tc main_arg2)) (mulf (F := Ideal) (broadcastInDim S1600000x128 ![0, 1] bcast_S1600000x1_S1600000x128_0_1 (W (Proc.devRef .tc main_v1))) (W (Proc.devRef .tc main_v2)))
    ∧ after hostOps1_2 W (Proc.devRef .tc main_v8) = biasRow (F := Ideal) (W (Proc.devRef .tc main_arg5))
    ∧ after hostOps1_2 W (Proc.devRef .tc main_arg1) = W (Proc.devRef .tc main_arg1)
    ∧ after hostOps1_2 W (Proc.devRef .tc main_arg2) = W (Proc.devRef .tc main_arg2)
    ∧ after hostOps1_2 W (Proc.devRef .tc main_arg3) = W (Proc.devRef .tc main_arg3)
    ∧ after hostOps1_2 W (Proc.devRef .tc main_arg6) = W (Proc.devRef .tc main_arg6)
    ∧ after hostOps1_2 W (Proc.devRef .tc main_arg7) = W (Proc.devRef .tc main_arg7) := by
  refine ⟨?_, ?_, ?_, ?_, ?_, ?_, ?_⟩ <;> after_results <;> rfl

/-- The stretch after the second grid: the weights as a column again. -/
theorem stretch2 : after hostOps2 W (Proc.devRef .tc main_v10) = broadcastInDim S1600000x1 ![0] bcast_S1600000_S1600000x1_0 (W (Proc.devRef .tc main_arg3))
    ∧ after hostOps2 W (Proc.devRef .tc main_v9) = W (Proc.devRef .tc main_v9)
    ∧ after hostOps2 W (Proc.devRef .tc main_arg1) = W (Proc.devRef .tc main_arg1)
    ∧ after hostOps2 W (Proc.devRef .tc main_arg2) = W (Proc.devRef .tc main_arg2)
    ∧ after hostOps2 W (Proc.devRef .tc main_arg7) = W (Proc.devRef .tc main_arg7) := by
  refine ⟨?_, ?_, ?_, ?_, ?_⟩ <;> after_results

/-- The second read of rows at the sources: the 40-wide table's rows with the position test. -/
theorem stretch2_1 : after hostOps2_1 W (Proc.devRef .tc main_v11) = takeRows40 (F := Ideal) (W (Proc.devRef .tc main_v9)) (W (Proc.devRef .tc main_arg1))
    ∧ after hostOps2_1 W (Proc.devRef .tc main_v10) = W (Proc.devRef .tc main_v10)
    ∧ after hostOps2_1 W (Proc.devRef .tc main_arg2) = W (Proc.devRef .tc main_arg2)
    ∧ after hostOps2_1 W (Proc.devRef .tc main_arg7) = W (Proc.devRef .tc main_arg7) := by
  refine ⟨?_, ?_, ?_, ?_⟩
  · after_results_simp
    simp only [ofBuf_toBuf]
    rw [toBuf_v11]
    simp only [ofBuf_arg1, ofBuf_v9]
    rfl
  all_goals after_results_simp

/-- The last stretch: the scaled rows summed into the destinations, plus the output bias. -/
theorem stretch2_2 : after hostOps2_2 W (Proc.devRef .tc main_v19)
      = addf (F := Ideal) (sumInto40 (F := Ideal) (W (Proc.devRef .tc main_arg2)) (mulf (F := Ideal) (broadcastInDim S1600000x40 ![0, 1] bcast_S1600000x1_S1600000x40_0_1 (W (Proc.devRef .tc main_v10))) (W (Proc.devRef .tc main_v11))))
          (biasRows40 (F := Ideal) (W (Proc.devRef .tc main_arg7))) := by
  after_results; rfl

end Stretches

/-! ## The fold, boundary by boundary -/

variable (m : (ℓ : Loc nD τ sig) → Buf (Elt Ideal) ℓ) (ρ : Dev nD → PrngReg)

/-- After the first grid: the dense product, the other arguments as launched. -/
theorem at1 (c : Dev nD) : W1 m ρ c (Proc.devRef .tc main_v0) = dense1 (m ((c : Thread nD τ).loc main_arg0)) (m ((c : Thread nD τ).loc main_arg4))
    ∧ W1 m ρ c (Proc.devRef .tc main_arg1) = m ((c : Thread nD τ).loc main_arg1)
    ∧ W1 m ρ c (Proc.devRef .tc main_arg2) = m ((c : Thread nD τ).loc main_arg2)
    ∧ W1 m ρ c (Proc.devRef .tc main_arg3) = m ((c : Thread nD τ).loc main_arg3)
    ∧ W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7) :=
  ⟨(W1_arr m ρ c 2).trans (final0 (V0 m ρ) c),
   W1_of_ne m ρ c main_arg1 (by decide), W1_of_ne m ρ c main_arg2 (by decide), W1_of_ne m ρ c main_arg3 (by decide),
   W1_of_ne m ρ c main_arg5 (by decide), W1_of_ne m ρ c main_arg6 (by decide), W1_of_ne m ρ c main_arg7 (by decide)⟩

/-- At the second grid's entry: the first aggregation, the bias row, the second weight matrix; the arguments read later as launched. -/
theorem at4 (c : Dev nD) : V4 m ρ c main_v7 = aggTake128 (F := Ideal) (dense1 (m ((c : Thread nD τ).loc main_arg0)) (m ((c : Thread nD τ).loc main_arg4)))
        (m ((c : Thread nD τ).loc main_arg1)) (m ((c : Thread nD τ).loc main_arg2)) (m ((c : Thread nD τ).loc main_arg3))
    ∧ V4 m ρ c main_v8 = biasRow (F := Ideal) (m ((c : Thread nD τ).loc main_arg5))
    ∧ V4 m ρ c main_arg6 = m ((c : Thread nD τ).loc main_arg6)
    ∧ W4 m ρ c (Proc.devRef .tc main_arg1) = m ((c : Thread nD τ).loc main_arg1)
    ∧ W4 m ρ c (Proc.devRef .tc main_arg2) = m ((c : Thread nD τ).loc main_arg2)
    ∧ W4 m ρ c (Proc.devRef .tc main_arg3) = m ((c : Thread nD τ).loc main_arg3)
    ∧ W4 m ρ c (Proc.devRef .tc main_arg7) = m ((c : Thread nD τ).loc main_arg7) := by
  obtain ⟨a0, a1, a2, a3, a5, a6, a7⟩ := at1 m ρ c
  obtain ⟨s1, s0, s11, s12, s13, s15, s16, s17⟩ := stretch1 (W1 m ρ c)
  obtain ⟨t2, t1, t11, t12, t13, t15, t16, t17⟩ := stretch1_1 (W2 m ρ c)
  obtain ⟨u7, u8, u1, u2, u3, u6, u7'⟩ := stretch1_2 (W3 m ρ c)
  refine ⟨?_, ?_, ?_, ?_, ?_, ?_, ?_⟩
  · refine u7.trans ?_
    rw [show W3 m ρ c (Proc.devRef .tc main_arg2) = _ from t12.trans (s12.trans a2),
      show W3 m ρ c (Proc.devRef .tc main_v1) = _ from t1.trans (s1.trans (by rw [a3])),
      show W3 m ρ c (Proc.devRef .tc main_v2) = _ from t2.trans (by rw [show W2 m ρ c (Proc.devRef .tc main_v0) = _ from s0.trans a0, show W2 m ρ c (Proc.devRef .tc main_arg1) = _ from s11.trans a1])]
    rfl
  · exact u8.trans (by rw [show W3 m ρ c (Proc.devRef .tc main_arg5) = _ from t15.trans (s15.trans a5)])
  · exact u6.trans (t16.trans (s16.trans a6))
  · exact u1.trans (t11.trans (s11.trans a1))
  · exact u2.trans (t12.trans (s12.trans a2))
  · exact u3.trans (t13.trans (s13.trans a3))
  · exact u7'.trans (t17.trans (s17.trans a7))

/-- THE RESULT: at the last boundary the result buffer holds `kernelOut` of the arguments as launched. -/
theorem result_eq (c : Dev nD) : W8 m ρ c (Proc.devRef .tc main_v19)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  obtain ⟨b7, b8, b6, b1, b2, b3, b7'⟩ := at4 m ρ c
  have h9 : W5 m ρ c (Proc.devRef .tc main_v9) = dense2 (V4 m ρ c main_v7) (V4 m ρ c main_v8) (V4 m ρ c main_arg6) :=
    (W5_arr m ρ c 3).trans (final1 (V4 m ρ) c)
  have h51 : W5 m ρ c (Proc.devRef .tc main_arg1) = m ((c : Thread nD τ).loc main_arg1) := (W5_of_ne m ρ c main_arg1 (by decide)).trans b1
  have h52 : W5 m ρ c (Proc.devRef .tc main_arg2) = m ((c : Thread nD τ).loc main_arg2) := (W5_of_ne m ρ c main_arg2 (by decide)).trans b2
  have h53 : W5 m ρ c (Proc.devRef .tc main_arg3) = m ((c : Thread nD τ).loc main_arg3) := (W5_of_ne m ρ c main_arg3 (by decide)).trans b3
  have h57 : W5 m ρ c (Proc.devRef .tc main_arg7) = m ((c : Thread nD τ).loc main_arg7) := (W5_of_ne m ρ c main_arg7 (by decide)).trans b7'
  obtain ⟨p10, p9, p1, p2, p7⟩ := stretch2 (W5 m ρ c)
  obtain ⟨q11, q10, q2, q7⟩ := stretch2_1 (W6 m ρ c)
  refine (stretch2_2 (W7 m ρ c)).trans ?_
  rw [show W7 m ρ c (Proc.devRef .tc main_arg2) = _ from q2.trans (p2.trans h52),
    show W7 m ρ c (Proc.devRef .tc main_arg7) = _ from q7.trans (p7.trans h57),
    show W7 m ρ c (Proc.devRef .tc main_v10) = _ from q10.trans (p10.trans (by rw [h53])),
    show W7 m ρ c (Proc.devRef .tc main_v11) = _ from q11.trans (by rw [show W6 m ρ c (Proc.devRef .tc main_v9) = _ from p9.trans h9, show W6 m ρ c (Proc.devRef .tc main_arg1) = _ from p1.trans h51]),
    b7, b8, b6]
  rfl

end Cert.GCN

end
-- ==== Proof.LibDotPlain.lean ====
/-
  The host's plain matrix product, read at an index.

  For dimension numbers that contract the left operand's axis 1 with the right operand's axis 0, keep the left operand's
  axis 0 and the right operand's axis 1, and have no batch axis, the host's product of `l : [M, K]` and `r : [K, N]` is,
  at `(p, q)`, the sum over `k < K` of `l (p, k) · r (k, q)` on the extended reals: the host's product has no
  accumulator, and its contraction index set has one axis of extent `K`, whose one coordinate re-indexes the sum. The
  four facts about the operands' coordinates are those of the dimension numbers alone and are the ones the accumulating
  product uses.
-/
import Idealize.ShloMosaic.PureOps.Ideal.Laws
import Idealize.ShloMosaic.Lib.ValueIdx
import proofs.«412282_j34746285424763_1_alg».proof.Proof.LibMatmulPlain

noncomputable section

namespace Cert.Lib.DotPlain

open Idealize.ShloMosaic Idealize.ShloMosaic.ValueIdx Cert.Lib.MatmulPlain

variable {M K N : Nat} (d : DotDims ⟨2, ![M, K]⟩ ⟨2, ![K, N]⟩ ⟨2, ![M, N]⟩)

/-- THE HOST'S PRODUCT AT `(p, q)`: the sum over the contracted coordinate of the operands' products. -/
theorem dot_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec HostSchedule.single l r (ix2 p q) = _
  rw [Ideal.dotGeneral_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_0 d hln hlb _ _
    | ⟨1, _⟩ => exact (lhs_1 d hlc _ _).trans hk
  have er : d.rhsIdx (ix2 p q) ((contrEquiv1 d K (contr_rank d hlc) (contr_size d hlc)).symm k) = ix2 k q := by
    funext a; apply Fin.ext
    match a with
    | ⟨0, _⟩ => exact (rhs_0 d hlc hrc _ _).trans hk
    | ⟨1, _⟩ => exact rhs_1 d hrn hln hlb hrb _ _
  rw [el, er]

end Cert.Lib.DotPlain

end
-- ==== Proof.RefValue.lean ====
/-
  What the reference leaves in its result, as the same function of its arguments with the rows read plainly.

  The reference's run gives its result as the composed term of its operations. Its two dense products are the host's
  matrix products, which over the extended reals are the sums the two grids leave block by block: entry (p, q) of
  `x @ W1` is the sum over k of x(p, k) · W1(k, q), and entry (p, q) of `relu(a + b1) @ W2` the sum over k of
  max(a(p, k) + b1(k), 0) · W2(k, q) — the bias read through its two broadcasts on one side and through its row shape
  on the other. Everything else of the term (the source positions, the gathers, the scaled rows, the scattered sums, the
  output bias) is the kernel program's own text and stays closed.
-/
import proofs.«412282_j34746285424763_1_alg».proof.Proof.Gen.ReferenceIdeal.Run
import proofs.«412282_j34746285424763_1_alg».proof.Proof.Aggregate
import proofs.«412282_j34746285424763_1_alg».proof.Proof.Dense1
import proofs.«412282_j34746285424763_1_alg».proof.Proof.Dense2
import proofs.«412282_j34746285424763_1_alg».proof.Proof.LibDotPlain
import Idealize.ShloMosaic.Lib.Pipeline.Value
import Idealize.ShloMosaic.Lib.ValueLayout
import Idealize.ShloMosaic.Lib.ValueIdx

noncomputable section

namespace Cert.GCN

open Idealize.ShloMosaic Idealize.ShloMosaic.ValueIdx

/-- The reference's result as a function of its eight arguments: the kernel program's function with the rows read plainly. -/
def refOut (x : FVec Ideal Cert.KernelIdeal.S100000x256 .f32) (src dst : IVec Cert.KernelIdeal.S1600000 32) (w : FVec Ideal Cert.KernelIdeal.S1600000 .f32)
    (W1 : FVec Ideal Cert.KernelIdeal.S256x128 .f32) (b1 : FVec Ideal Cert.KernelIdeal.S128 .f32) (W2 : FVec Ideal Cert.KernelIdeal.S128x40 .f32)
    (b2 : FVec Ideal Cert.KernelIdeal.S40 .f32) : FVec Ideal Cert.KernelIdeal.S100000x40 .f32 :=
  addf (agg40 (dense2 (agg128 (dense1 x W1) src dst w) (biasRow b1) W2) src dst w) (biasRows40 b2)

section
open Cert.ReferenceIdeal Cert.ReferenceIdeal.Gen

/-- The host's first product is the dense product of the first grid. -/
theorem dot1_eq (x : FVec Ideal S100000x256 .f32) (W1 : FVec Ideal S256x128 .f32) :
    Host.dotGeneral dot_S100000x256_S256x128_S100000x128_1_0_0_1_n_n none x W1 = dense1 x W1 := by
  funext i
  obtain ⟨p, q, rfl⟩ : ∃ (p : Fin 100000) (q : Fin 128), i = ix2 p q := ⟨i 0, i 1, eq_ix2 i⟩
  exact Cert.Lib.DotPlain.dot_apply dot_S100000x256_S256x128_S100000x128_1_0_0_1_n_n rfl rfl rfl rfl rfl rfl none x W1 p q

/-- The bias through its two broadcasts, at (p, k), is the bias at k. -/
theorem bias_bcast (b1 : FVec Ideal S128 .f32) (p : Fin 100000) (k : Fin 128) :
    broadcastInDim S100000x128 ![0, 1] bcast_S1x128_S100000x128_0_1 (broadcastInDim S1x128 ![1] bcast_S128_S1x128_1 b1) (ix2 p k) = b1 (ix1 k) := by
  rw [broadcastInDim_apply _ _ _ (ix2 p k) (ix2 (0 : Fin 1) k) (fun a => by match a with | ⟨0, _⟩ => rfl | ⟨1, _⟩ => rfl),
    broadcastInDim_apply _ _ _ (ix2 (0 : Fin 1) k) (ix1 k) (fun a => by match a with | ⟨0, _⟩ => rfl)]

/-- The host's second product, of the clipped biased table, is the dense product of the second grid. -/
theorem dot2_eq (a : FVec Ideal S100000x128 .f32) (b1 : FVec Ideal S128 .f32) (W2 : FVec Ideal S128x40 .f32) :
    Host.dotGeneral dot_S100000x128_S128x40_S100000x40_1_0_0_1_n_n none
      (maximumf (addf a (broadcastInDim S100000x128 ![0, 1] bcast_S1x128_S100000x128_0_1 (broadcastInDim S1x128 ![1] bcast_S128_S1x128_1 b1)))
        (broadcastInDim S100000x128 ![] bcast_S_S100000x128 (constant S_ .f32 0x00000000#32))) W2
    = dense2 a (biasRow b1) W2 := by
  funext i
  obtain ⟨p, q, rfl⟩ : ∃ (p : Fin 100000) (q : Fin 40), i = ix2 p q := ⟨i 0, i 1, eq_ix2 i⟩
  refine (Cert.Lib.DotPlain.dot_apply dot_S100000x128_S128x40_S100000x40_1_0_0_1_n_n rfl rfl rfl rfl rfl rfl none _ W2 p q).trans ?_
  show _ = ∑ k : Fin 128, max (a (ix2 p k) + biasRow b1 (ix2 0 k)) 0 * W2 (ix2 k q)
  refine Finset.sum_congr rfl fun k _ => ?_
  rw [maximumf_apply, addf_apply, bias_bcast b1 p k]
  show max (a (ix2 p k) + b1 (ix1 k)) (Ideal.ofBits .f32 0x00000000#32) * _ = _
  rw [Ideal.ofBits_zero_f32]
  unfold biasRow
  rw [shapeCast_a_1a_apply b1 _ (0 : Fin 1) k]

/-- THE REFERENCE'S TERM is `refOut` of the arguments. -/
theorem ref_term_eq (x : FVec Ideal S100000x256 .f32) (src dst : IVec S1600000 32) (w : FVec Ideal S1600000 .f32)
    (W1 : FVec Ideal S256x128 .f32) (b1 : FVec Ideal S128 .f32) (W2 : FVec Ideal S128x40 .f32) (b2 : FVec Ideal S40 .f32) :
    addf (Host.scatterAdd scatter_S100000x40_S1600000x1_S1600000x40_1_0_0_1 (broadcastInDim S100000x40 ![] bcast_S_S100000x40 (constant S_ .f32 0x00000000#32)) (broadcastInDim S1600000x1 ![0] bcast_S1600000_S1600000x1_0 dst) (mulf (broadcastInDim S1600000x40 ![0, 1] bcast_S1600000x1_S1600000x40_0_1 (broadcastInDim S1600000x1 ![0] bcast_S1600000_S1600000x1_0 w)) (Host.gather gather_S100000x40_S1600000x1_S1600000x40_1_0_n_n_0_1_140 (Host.dotGeneral dot_S100000x128_S128x40_S100000x40_1_0_0_1_n_n none (maximumf (addf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (mulf (broadcastInDim S1600000x128 ![0, 1] bcast_S1600000x1_S1600000x128_0_1 (broadcastInDim S1600000x1 ![0] bcast_S1600000_S1600000x1_0 w)) (Host.gather gather_S100000x128_S1600000x1_S1600000x128_1_0_n_n_0_1_1128 (Host.dotGeneral dot_S100000x256_S256x128_S100000x128_1_0_0_1_n_n none x W1) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))))) (broadcastInDim S100000x128 ![0, 1] bcast_S1x128_S100000x128_0_1 (broadcastInDim S1x128 ![1] bcast_S128_S1x128_1 b1))) (broadcastInDim S100000x128 ![] bcast_S_S100000x128 (constant S_ .f32 0x00000000#32))) W2) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))))) (broadcastInDim S100000x40 ![0, 1] bcast_S1x40_S100000x40_0_1 (broadcastInDim S1x40 ![1] bcast_S40_S1x40_1 b2))
    = refOut x src dst w W1 b1 W2 b2 := by
  rw [dot1_eq, dot2_eq]
  rfl

end

end Cert.GCN

end
-- ==== Proof.PreRange.lean ====
/-
  The precondition's last conjunct, read back: every edge source is in [-100000, 100000).

  The precondition is a conjunction of "all" tests, the last of which is over the edge sources: each source is at least
  -100000 and less than 100000 as a signed number. Its value being one at the only index of the result says each
  conjunct is one, the last conjunct being one says the test is one on every edge, and the test on an edge is the
  conjunction of the two comparisons of that edge's source.
-/
import proofs.«412282_j34746285424763_1_alg».proof.Pre_finite_inputs
import proofs.«412282_j34746285424763_1_alg».proof.Proof.Gen.Pre_finite_inputs
import proofs.«412282_j34746285424763_1_alg».proof.Proof.EdgeIndex
import Idealize.ShloMosaic.Lib.ReduceAll
import Idealize.ShloMosaic.Lib.ValueIdx

noncomputable section

namespace Cert.GCN

open Idealize.ShloMosaic

variable {F : FTy → Type} [FloatOps F]

instance : Subsingleton (Cert.Pre_finite_inputs.S_).Idx := ⟨fun a b => funext fun d => d.elim0⟩

/-- Where the precondition holds, the edge sources are in range. -/
theorem srcInRange_of_pre (a0 : FVec F Cert.Pre_finite_inputs.S100000x256 .f32) (a1 : IVec Cert.Pre_finite_inputs.S1600000 32)
    (a2 : IVec Cert.Pre_finite_inputs.S1600000 32) (a3 : FVec F Cert.Pre_finite_inputs.S1600000 .f32)
    (a4 : FVec F Cert.Pre_finite_inputs.S256x128 .f32) (a5 : FVec F Cert.Pre_finite_inputs.S128 .f32)
    (a6 : FVec F Cert.Pre_finite_inputs.S128x40 .f32) (a7 : FVec F Cert.Pre_finite_inputs.S40 .f32)
    (h : Cert.Pre_finite_inputs.fn (F := F) a0 a1 a2 a3 a4 a5 a6 a7 = fun _ => 1#1) : SrcInRange a1 := by
  have h0 := congrFun h ValueIdx.ix0
  dsimp only [Cert.Pre_finite_inputs.fn, Cert.Pre_finite_inputs.fn_part1, Cert.Pre_finite_inputs.fn_part2] at h0
  have hlast := (IntOp.andi_eq_one.mp h0).2
  intro e
  have he := Host.reduce_andi_all _ _ _ _ _ hlast e
  exact IntOp.andi_eq_one.mp he

end Cert.GCN

end
-- ==== Proof.lean ====
/-
  A two-layer graph convolution: the kernel's program against its reference, over the extended reals.

  Both programs compute  out = A·(relu(A·(x·W1) + b1)·W2) + b2, where A·h gathers the rows of h at the edge sources,
  scales each by its edge's weight and sums them into the rows at the edge destinations. The kernel's program computes
  the two dense products x·W1 and relu(· + b1)·W2 on a grid of 25 row blocks each (Dense1, Dense2: the blocks are the
  row blocks of one matrix product, and they cover the rows), and reads the gathered rows with a test of the source
  position against the table's extent, writing a fill value where the test fails; the reference reads them with no
  test. Under the precondition every edge source is in [-100000, 100000) (PreRange), so the test holds on every edge
  (EdgeIndex) and the two readings agree (Aggregate). The kernel's result is read off the fold of buffer contents
  through its @main (KernelValue, over the run of KRun), the reference's off its generated run (RefValue); the two are
  one function of the arguments. No law of the extended reals beyond the sums' definitions is used, so finiteness of
  the inputs is never opened. The idealization rewrote nothing, so `preserves` is trivial.
-/
import proofs.«412282_j34746285424763_1_alg».proof.Defs
import proofs.«412282_j34746285424763_1_alg».proof.Proof.Gen.Kernel
import proofs.«412282_j34746285424763_1_alg».proof.Proof.Gen.Kernel.Skeleton
import proofs.«412282_j34746285424763_1_alg».proof.Proof.Gen.Kernel.Launch
import proofs.«412282_j34746285424763_1_alg».proof.Proof.Gen.Kernel.Points
import proofs.«412282_j34746285424763_1_alg».proof.Proof.Gen.Kernel.Frame
import proofs.«412282_j34746285424763_1_alg».proof.Proof.Gen.KernelIdeal
import proofs.«412282_j34746285424763_1_alg».proof.Proof.Gen.KernelIdeal.Skeleton
import proofs.«412282_j34746285424763_1_alg».proof.Proof.Gen.KernelIdeal.Launch
import proofs.«412282_j34746285424763_1_alg».proof.Proof.Gen.KernelIdeal.Points
import proofs.«412282_j34746285424763_1_alg».proof.Proof.Gen.KernelIdeal.Frame
import proofs.«412282_j34746285424763_1_alg».proof.Proof.Gen.ReferenceIdeal
import proofs.«412282_j34746285424763_1_alg».proof.Proof.Gen.Pre_finite_inputs
import proofs.«412282_j34746285424763_1_alg».proof.Proof.Gen.ReferenceIdeal.Run
import proofs.«412282_j34746285424763_1_alg».proof.Proof.KRun
import proofs.«412282_j34746285424763_1_alg».proof.Proof.KernelValue
import proofs.«412282_j34746285424763_1_alg».proof.Proof.RefValue
import proofs.«412282_j34746285424763_1_alg».proof.Proof.PreRange
import Idealize.ShloMosaic.Adequacy
import Idealize.ShloMosaic.Init

noncomputable section

namespace Cert.GCN

open Idealize.ShloMosaic

/-- With the edge sources in range the two programs' results are one function of the arguments. -/
theorem kernelOut_eq_refOut {src : IVec Cert.KernelIdeal.S1600000 32} (hs : SrcInRange src)
    (x : FVec Ideal Cert.KernelIdeal.S100000x256 .f32) (dst : IVec Cert.KernelIdeal.S1600000 32) (w : FVec Ideal Cert.KernelIdeal.S1600000 .f32)
    (W1 : FVec Ideal Cert.KernelIdeal.S256x128 .f32) (b1 : FVec Ideal Cert.KernelIdeal.S128 .f32) (W2 : FVec Ideal Cert.KernelIdeal.S128x40 .f32)
    (b2 : FVec Ideal Cert.KernelIdeal.S40 .f32) : kernelOut x src dst w W1 b1 W2 b2 = refOut x src dst w W1 b1 W2 b2 := by
  unfold kernelOut refOut
  rw [aggTake128_eq hs, aggTake40_eq hs]

end Cert.GCN

namespace Cert.Proof

open Idealize.ShloMosaic Idealize.SL.Sem Cert.GCN

theorem frame_k : Cert.frame_Kernel := fun m ρ _ => Cert.Kernel.Gen.frame m ρ

theorem frame_ki : Cert.frame_KernelIdeal := fun m ρ _ => Cert.KernelIdeal.Gen.frame m ρ

/-- The reference has no grid: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at `kernelOut` of the kernel's arguments: the kernel's by the fold through its @main, the
    reference's by its run, its two products read as the grids' and its rows read as the kernel's where the sources
    are in range. -/
theorem algebraic : Cert.algebraic_KernelIdeal_ReferenceIdeal := by
  intro m ρ m' ρ' hpre hagree
  have hs : ∀ c : Dev Cert.KernelIdeal.nD, SrcInRange (m ((c.tc : Thread Cert.KernelIdeal.nD Cert.KernelIdeal.τ).loc Cert.KernelIdeal.main_arg1)) :=
    fun c => srcInRange_of_pre _ _ _ _ _ _ _ _ (hpre c)
  refine ⟨fun c => kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono (fun _ h c => ⟨(h c).1.trans (result_eq m ρ c), (h c).2⟩)
      (Cert.KernelIdeal.RunResult.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨g0, g1, g2, g3, g4, g5, g6, g7⟩ := hagree c
    rw [ref_term_eq, g0, g1, g2, g3, g4, g5, g6, g7]
    exact (kernelOut_eq_refOut (hs c) _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
